-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S132651x1 : Shape := ⟨2, ![132651, 1]⟩
abbrev S1x2 : Shape := ⟨2, ![1, 2]⟩
abbrev S2 : Shape := ⟨1, ![2]⟩
abbrev S2x8489664 : Shape := ⟨2, ![2, 8489664]⟩
abbrev S_ : Shape := ⟨0, ![]⟩

class Facts : Prop where
  bcast_S_S132651x1 : S_.BroadcastsInDim S132651x1 (![] : Fin 0 → Fin S132651x1.rank)
  reducesTo_S132651x1_S_d0_1 : S132651x1.ReducesTo [0, 1] S_
  h_S_ : 0 < S_.numel
  bcast_S_S1x2 : S_.BroadcastsInDim S1x2 (![] : Fin 0 → Fin S1x2.rank)
  reducesTo_S1x2_S_d0_1 : S1x2.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S132651x1 .f32) (main_arg1 : FVec F S1x2 .f32) (main_arg2 : FVec F S2 .f32) (main_arg3 : IVec S2x8489664 32) : IVec S_ 1 :=
  let main_v0 : FVec F S132651x1 .f32 := Host.absf main_arg0
  let main_cst : FVec F S_ .f32 := constant S_ .f32 0x7F800000#32
  let main_v1 : FVec F S132651x1 .f32 := broadcastInDim S132651x1 ![] bcast_S_S132651x1 main_cst
  let main_v2 : IVec S132651x1 1 := cmpf .olt main_v0 main_v1
  let main_c : IVec S_ 1 := constantI S_ 1 1#1
  let main_v3 : IVec S_ 1 := (fun x v => Host.reduce IntOp.andi x v reducesTo_S132651x1_S_d0_1 h_S_) main_v2 main_c
  let main_v4 : FVec F S1x2 .f32 := Host.absf main_arg1
  let main_cst_0 : FVec F S_ .f32 := constant S_ .f32 0x7F800000#32
  let main_v5 : FVec F S1x2 .f32 := broadcastInDim S1x2 ![] bcast_S_S1x2 main_cst_0
  let main_v6 : IVec S1x2 1 := cmpf .olt main_v4 main_v5
  let main_c_1 : IVec S_ 1 := constantI S_ 1 1#1
  let main_v7 : IVec S_ 1 := (fun x v => Host.reduce IntOp.andi x v reducesTo_S1x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S132651x1 : Shape := ⟨2, ![132651, 1]⟩
abbrev S1x2 : Shape := ⟨2, ![1, 2]⟩
abbrev S2 : Shape := ⟨1, ![2]⟩
abbrev S2x8489664 : Shape := ⟨2, ![2, 8489664]⟩
abbrev S1x8489664 : Shape := ⟨2, ![1, 8489664]⟩
abbrev S8489664 : Shape := ⟨1, ![8489664]⟩
abbrev S132651 : Shape := ⟨1, ![132651]⟩
abbrev S8622315 : Shape := ⟨1, ![8622315]⟩
abbrev S_ : Shape := ⟨0, ![]⟩
abbrev S8622315x1 : Shape := ⟨2, ![8622315, 1]⟩
abbrev S132651x2 : Shape := ⟨2, ![132651, 2]⟩
abbrev S8622315x2 : Shape := ⟨2, ![8622315, 2]⟩
abbrev S2x132651 : Shape := ⟨2, ![2, 132651]⟩
abbrev S8489664x1 : Shape := ⟨2, ![8489664, 1]⟩
abbrev S2x4244832 : Shape := ⟨2, ![2, 4244832]⟩
abbrev S2x4325376 : Shape := ⟨2, ![2, 4325376]⟩
abbrev S1x4325376 : Shape := ⟨2, ![1, 4325376]⟩
abbrev S2x98304 : Shape := ⟨2, ![2, 98304]⟩
abbrev S1x98304 : Shape := ⟨2, ![1, 98304]⟩
abbrev S98304 : Shape := ⟨1, ![98304]⟩
abbrev S1x4244832 : Shape := ⟨2, ![1, 4244832]⟩
abbrev S4244832x1 : Shape := ⟨2, ![4244832, 1]⟩

abbrev nBuf : Space → Nat
  | .hbm => 108
  | .vmem => 10
  | .smem => 0
  | _ => 0

abbrev bufTy : (tb : Table) → Fin (tcTables nBuf tb) → BufTy
  | .hbm, ⟨0, _⟩ => ⟨S132651x1, .f32⟩
  | .hbm, ⟨1, _⟩ => ⟨S1x2, .f32⟩
  | .hbm, ⟨2, _⟩ => ⟨S2, .f32⟩
  | .hbm, ⟨3, _⟩ => ⟨S2x8489664, .i32⟩
  | .hbm, ⟨4, _⟩ => ⟨S1x8489664, .i32⟩
  | .hbm, ⟨5, _⟩ => ⟨S8489664, .i32⟩
  | .hbm, ⟨6, _⟩ => ⟨S1x8489664, .i32⟩
  | .hbm, ⟨7, _⟩ => ⟨S8489664, .i32⟩
  | .hbm, ⟨8, _⟩ => ⟨S132651, .i32⟩
  | .hbm, ⟨9, _⟩ => ⟨S8622315, .i32⟩
  | .hbm, ⟨10, _⟩ => ⟨S8622315, .i32⟩
  | .hbm, ⟨11, _⟩ => ⟨S_, .f32⟩
  | .hbm, ⟨12, _⟩ => ⟨S8622315, .f32⟩
  | .hbm, ⟨13, _⟩ => ⟨S_, .f32⟩
  | .hbm, ⟨14, _⟩ => ⟨S132651, .f32⟩
  | .hbm, ⟨15, _⟩ => ⟨S8622315x1, .i32⟩
  | .hbm, ⟨16, _⟩ => ⟨S132651, .f32⟩
  | .hbm, ⟨17, _⟩ => ⟨S_, .f32⟩
  | .hbm, ⟨18, _⟩ => ⟨S132651, .f32⟩
  | .hbm, ⟨19, _⟩ => ⟨S132651, .i1⟩
  | .hbm, ⟨20, _⟩ => ⟨S_, .f32⟩
  | .hbm, ⟨21, _⟩ => ⟨S132651, .f32⟩
  | .hbm, ⟨22, _⟩ => ⟨S132651, .f32⟩
  | .hbm, ⟨23, _⟩ => ⟨S132651, .f32⟩
  | .hbm, ⟨24, _⟩ => ⟨S_, .f32⟩
  | .hbm, ⟨25, _⟩ => ⟨S_, .f32⟩
  | .hbm, ⟨26, _⟩ => ⟨S132651, .f32⟩
  | .hbm, ⟨27, _⟩ => ⟨S132651, .f32⟩
  | .hbm, ⟨28, _⟩ => ⟨S_, .i32⟩
  | .hbm, ⟨29, _⟩ => ⟨S8622315, .i32⟩
  | .hbm, ⟨30, _⟩ => ⟨S8622315, .i1⟩
  | .hbm, ⟨31, _⟩ => ⟨S_, .i32⟩
  | .hbm, ⟨32, _⟩ => ⟨S8622315, .i32⟩
  | .hbm, ⟨33, _⟩ => ⟨S8622315, .i32⟩
  | .hbm, ⟨34, _⟩ => ⟨S8622315, .i32⟩
  | .hbm, ⟨35, _⟩ => ⟨S8622315x1, .i32⟩
  | .hbm, ⟨36, _⟩ => ⟨S8622315, .f32⟩
  | .hbm, ⟨37, _⟩ => ⟨S_, .i32⟩
  | .hbm, ⟨38, _⟩ => ⟨S8622315, .i32⟩
  | .hbm, ⟨39, _⟩ => ⟨S8622315, .i1⟩
  | .hbm, ⟨40, _⟩ => ⟨S_, .i32⟩
  | .hbm, ⟨41, _⟩ => ⟨S8622315, .i32⟩
  | .hbm, ⟨42, _⟩ => ⟨S8622315, .i32⟩
  | .hbm, ⟨43, _⟩ => ⟨S8622315, .i32⟩
  | .hbm, ⟨44, _⟩ => ⟨S8622315x1, .i32⟩
  | .hbm, ⟨45, _⟩ => ⟨S8622315, .f32⟩
  | .hbm, ⟨46, _⟩ => ⟨S8622315, .f32⟩
  | .hbm, ⟨47, _⟩ => ⟨S132651x2, .f32⟩
  | .hbm, ⟨48, _⟩ => ⟨S8622315x1, .f32⟩
  | .hbm, ⟨49, _⟩ => ⟨S_, .i32⟩
  | .hbm, ⟨50, _⟩ => ⟨S8622315, .i32⟩
  | .hbm, ⟨51, _⟩ => ⟨S8622315, .i1⟩
  | .hbm, ⟨52, _⟩ => ⟨S_, .i32⟩
  | .hbm, ⟨53, _⟩ => ⟨S8622315, .i32⟩
  | .hbm, ⟨54, _⟩ => ⟨S8622315, .i32⟩
  | .hbm, ⟨55, _⟩ => ⟨S8622315, .i32⟩
  | .hbm, ⟨56, _⟩ => ⟨S8622315x1, .i32⟩
  | .hbm, ⟨57, _⟩ => ⟨S8622315x2, .f32⟩
  | .hbm, ⟨58, _⟩ => ⟨S8622315x2, .f32⟩
  | .hbm, ⟨59, _⟩ => ⟨S8622315x2, .f32⟩
  | .hbm, ⟨60, _⟩ => ⟨S_, .f32⟩
  | .hbm, ⟨61, _⟩ => ⟨S132651x2, .f32⟩
  | .hbm, ⟨62, _⟩ => ⟨S8622315x1, .i32⟩
  | .hbm, ⟨63, _⟩ => ⟨S132651x2, .f32⟩
  | .hbm, ⟨64, _⟩ => ⟨S1x2, .f32⟩
  | .hbm, ⟨65, _⟩ => ⟨S132651x2, .f32⟩
  | .hbm, ⟨66, _⟩ => ⟨S132651x2, .f32⟩
  | .hbm, ⟨67, _⟩ => ⟨S_, .f32⟩
  | .hbm, ⟨68, _⟩ => ⟨S132651x2, .f32⟩
  | .hbm, ⟨69, _⟩ => ⟨S132651x2, .f32⟩
  | .hbm, ⟨70, _⟩ => ⟨S2x132651, .f32⟩
  | .hbm, ⟨71, _⟩ => ⟨S_, .i32⟩
  | .hbm, ⟨72, _⟩ => ⟨S8489664, .i32⟩
  | .hbm, ⟨73, _⟩ => ⟨S8489664, .i1⟩
  | .hbm, ⟨74, _⟩ => ⟨S_, .i32⟩
  | .hbm, ⟨75, _⟩ => ⟨S8489664, .i32⟩
  | .hbm, ⟨76, _⟩ => ⟨S8489664, .i32⟩
  | .hbm, ⟨77, _⟩ => ⟨S8489664, .i32⟩
  | .hbm, ⟨78, _⟩ => ⟨S8489664x1, .i32⟩
  | .hbm, ⟨79, _⟩ => ⟨S2x8489664, .f32⟩
  | .hbm, ⟨80, _⟩ => ⟨S_, .i32⟩
  | .hbm, ⟨81, _⟩ => ⟨S8489664, .i32⟩
  | .hbm, ⟨82, _⟩ => ⟨S8489664, .i1⟩
  | .hbm, ⟨83, _⟩ => ⟨S_, .i32⟩
  | .hbm, ⟨84, _⟩ => ⟨S8489664, .i32⟩
  | .hbm, ⟨85, _⟩ => ⟨S8489664, .i32⟩
  | .hbm, ⟨86, _⟩ => ⟨S8489664, .i32⟩
  | .hbm, ⟨87, _⟩ => ⟨S8489664x1, .i32⟩
  | .hbm, ⟨88, _⟩ => ⟨S2x8489664, .f32⟩
  | .hbm, ⟨89, _⟩ => ⟨S2x4244832, .f32⟩
  | .hbm, ⟨90, _⟩ => ⟨S2x4244832, .f32⟩
  | .hbm, ⟨91, _⟩ => ⟨S2x4244832, .f32⟩
  | .hbm, ⟨92, _⟩ => ⟨S2x4244832, .f32⟩
  | .hbm, ⟨93, _⟩ => ⟨S_, .i32⟩
  | .hbm, ⟨94, _⟩ => ⟨S_, .f32⟩
  | .hbm, ⟨95, _⟩ => ⟨S2x4325376, .f32⟩
  | .hbm, ⟨96, _⟩ => ⟨S_, .i32⟩
  | .hbm, ⟨97, _⟩ => ⟨S_, .f32⟩
  | .hbm, ⟨98, _⟩ => ⟨S2x4325376, .f32⟩
  | .hbm, ⟨99, _⟩ => ⟨S_, .i32⟩
  | .hbm, ⟨100, _⟩ => ⟨S_, .f32⟩
  | .hbm, ⟨101, _⟩ => ⟨S2x4325376, .f32⟩
  | .hbm, ⟨102, _⟩ => ⟨S_, .i32⟩
  | .hbm, ⟨103, _⟩ => ⟨S_, .f32⟩
  | .hbm, ⟨104, _⟩ => ⟨S2x4325376, .f32⟩
  | .hbm, ⟨105, _⟩ => ⟨S1x4325376, .f32⟩
  | .hbm, ⟨106, _⟩ => ⟨S1x4244832, .f32⟩
  | .hbm, ⟨107, _⟩ => ⟨S4244832x1, .f32⟩
  | .local _ .vmem, ⟨0, _⟩ => ⟨S2x98304, .f32⟩
  | .local _ .vmem, ⟨1, _⟩ => ⟨S2x98304, .f32⟩
  | .local _ .vmem, ⟨2, _⟩ => ⟨S2x98304, .f32⟩
  | .local _ .vmem, ⟨3, _⟩ => ⟨S2x98304, .f32⟩
  | .local _ .vmem, ⟨4, _⟩ => ⟨S2x98304, .f32⟩
  | .local _ .vmem, ⟨5, _⟩ => ⟨S2x98304, .f32⟩
  | .local _ .vmem, ⟨6, _⟩ => ⟨S2x98304, .f32⟩
  | .local _ .vmem, ⟨7, _⟩ => ⟨S2x98304, .f32⟩
  | .local _ .vmem, ⟨8, _⟩ => ⟨S1x98304, .f32⟩
  | .local _ .vmem, ⟨9, _⟩ => ⟨S1x98304, .f32⟩
  | _, _ => ⟨S132651x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_call2_v0 : Ref sig .tc := ⟨.hbm, 94, rfl⟩
abbrev main_v69 : Ref sig .tc := ⟨.hbm, 95, rfl⟩
abbrev main_c_15 : Ref sig .tc := ⟨.hbm, 96, rfl⟩
abbrev main_call3_v0 : Ref sig .tc := ⟨.hbm, 97, rfl⟩
abbrev main_v70 : Ref sig .tc := ⟨.hbm, 98, rfl⟩
abbrev main_c_16 : Ref sig .tc := ⟨.hbm, 99, rfl⟩
abbrev main_call4_v0 : Ref sig .tc := ⟨.hbm, 100, rfl⟩
abbrev main_v71 : Ref sig .tc := ⟨.hbm, 101, rfl⟩
abbrev main_c_17 : Ref sig .tc := ⟨.hbm, 102, rfl⟩
abbrev main_call5_v0 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x98304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x98304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x98304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x98304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x98304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x8489664_S1x8489664_0_0 : S2x8489664.Slices ![0, 0] S1x8489664
  shapeCasts_S1x8489664_S8489664 : S1x8489664.ShapeCasts S8489664
  slices_S2x8489664_S1x8489664_1_0 : S2x8489664.Slices ![1, 0] S1x8489664
  concatenates_S8489664_S132651_S8622315_d0 : Shape.Concatenates [S8489664, S132651] S8622315 0
  bcast_S_S8622315 : S_.BroadcastsInDim S8622315 (![] : Fin 0 → Fin S8622315.rank)
  bcast_S_S132651 : S_.BroadcastsInDim S132651 (![] : Fin 0 → Fin S132651.rank)
  bcast_S8622315_S8622315x1_0 : S8622315.BroadcastsInDim S8622315x1 (![0] : Fin 1 → Fin S8622315x1.rank)
  bcast_S8622315x1_S8622315x2_0_1 : S8622315x1.BroadcastsInDim S8622315x2 (![0, 1] : Fin 2 → Fin S8622315x2.rank)
  bcast_S_S132651x2 : S_.BroadcastsInDim S132651x2 (![] : Fin 0 → Fin S132651x2.rank)
  bcast_S2_S1x2_1 : S2.BroadcastsInDim S1x2 (![1] : Fin 1 → Fin S1x2.rank)
  bcast_S1x2_S132651x2_0_1 : S1x2.BroadcastsInDim S132651x2 (![0, 1] : Fin 2 → Fin S132651x2.rank)
  transposes_S132651x2_S2x132651_1_0 : S132651x2.Transposes [1, 0] S2x132651
  bcast_S_S8489664 : S_.BroadcastsInDim S8489664 (![] : Fin 0 → Fin S8489664.rank)
  bcast_S8489664_S8489664x1_0 : S8489664.BroadcastsInDim S8489664x1 (![0] : Fin 1 → Fin S8489664x1.rank)
  slices_S2x8489664_S2x4244832_0_0 : S2x8489664.Slices ![0, 0] S2x4244832
  slices_S2x8489664_S2x4244832_0_4244832 : S2x8489664.Slices ![0, 4244832] S2x4244832
  pads_S2x4244832_S2x4325376_000_0805440 : S2x4244832.Pads (![0, 0] : Fin 2 → Nat) ![0, 80544] ![0, 0] S2x4325376
  h_S_ : 0 < S_.numel
  inb_S2x98304_S2x98304_0_0 : ∀ a, (![0, 0] : Fin 2 → Nat) a + S2x98304.size a ≤ S2x98304.size a
  h_S2x98304 : 0 < S2x98304.numel
  shapeCasts_S2x98304_S2x98304 : S2x98304.ShapeCasts S2x98304
  reduces_S2x98304_S98304 : S2x98304.Reduces [0] S98304
  shapeCasts_S98304_S1x98304 : S98304.ShapeCasts S1x98304
  inb_S1x98304_S1x98304_0_0 : ∀ a, (![0, 0] : Fin 2 → Nat) a + S1x98304.size a ≤ S1x98304.size a
  h_S1x98304 : 0 < S1x98304.numel
  slices_S1x4325376_S1x4244832_0_0 : S1x4325376.Slices ![0, 0] S1x4244832
  shapeCasts_S1x4244832_S4244832x1 : S1x4244832.ShapeCasts S4244832x1
  scatter_S132651_S8622315x1_S8622315_n_0_0_1_wf : ScatterDims.WF S132651 S8622315x1 S8622315 [] [0] [0] 1
  gather_S132651_S8622315x1_S8622315_n_0_n_n_0_1_1_wf : GatherDims.WF S132651 S8622315x1 S8622315 [] [0] [] [0] [] 1 ![1]
  dot_S132651x1_S1x2_S132651x2_1_0_0_1_n_n_wf : DotDims.WF S132651x1 S1x2 S132651x2 [1] [0] [0] [1] [] []
  gather_S132651x2_S8622315x1_S8622315x2_1_0_n_n_0_1_12_wf : GatherDims.WF S132651x2 S8622315x1 S8622315x2 [1] [0] [] [0] [] 1 ![1, 2]
  scatter_S132651x2_S8622315x1_S8622315x2_1_0_0_1_wf : ScatterDims.WF S132651x2 S8622315x1 S8622315x2 [1] [0] [0] 1
  gather_S2x132651_S8489664x1_S2x8489664_0_1_n_n_1_1_21_wf : GatherDims.WF S2x132651 S8489664x1 S2x8489664 [0] [1] [] [1] [] 1 ![2, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x98304.size a ≤ S2x4325376.size a
  hwx0_0 : ∀ i : grid0.Coords, EltTy.bits .f32 = 32 ∨ (Rect.block (s := S2x4325376) S2x98304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x98304.size a ≤ S2x4325376.size a
  hwx0_1 : ∀ i : grid0.Coords, EltTy.bits .f32 = 32 ∨ (Rect.block (s := S2x4325376) S2x98304.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x98304.size a ≤ S2x4325376.size a
  hwx0_2 : ∀ i : grid0.Coords, EltTy.bits .f32 = 32 ∨ (Rect.block (s := S2x4325376) S2x98304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x98304.size a ≤ S2x4325376.size a
  hwx0_3 : ∀ i : grid0.Coords, EltTy.bits .f32 = 32 ∨ (Rect.block (s := S2x4325376) S2x98304.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x98304.size a ≤ S1x4325376.size a
  hwx0_4 : ∀ i : grid0.Coords, EltTy.bits .f32 = 32 ∨ (Rect.block (s := S1x4325376) S1x98304.size (cc0_transform_4 i) (hinb0_4 i)).WholeWords (EltTy.packing .f32)

variable [Facts₀]

def scatter_S132651_S8622315x1_S8622315_n_0_0_1 : ScatterDims S132651 S8622315x1 S8622315 where
  updateWindowDims := []
  insertedWindowDims := [0]
  scatterDimsToOperandDims := [0]
  indexVectorDim := 1
  wf := scatter_S132651_S8622315x1_S8622315_n_0_0_1_wf
def gather_S132651_S8622315x1_S8622315_n_0_n_n_0_1_1 : GatherDims S132651 S8622315x1 S8622315 where
  offsetDims := []
  collapsedSliceDims := [0]
  operandBatchingDims := []
  startIndicesBatchingDims := []
  startIndexMap := [0]
  indexVectorDim := 1
  sliceSizes := ![1]
  wf := gather_S132651_S8622315x1_S8622315_n_0_n_n_0_1_1_wf
def dot_S132651x1_S1x2_S132651x2_1_0_0_1_n_n : DotDims S132651x1 S1x2 S132651x2 where
  lhsContracting := [1]
  rhsContracting := [0]
  lhsNonContracting := [0]
  rhsNonContracting := [1]
  lhsBatch := []
  rhsBatch := []
  wf := dot_S132651x1_S1x2_S132651x2_1_0_0_1_n_n_wf
def gather_S132651x2_S8622315x1_S8622315x2_1_0_n_n_0_1_12 : GatherDims S132651x2 S8622315x1 S8622315x2 where
  offsetDims := [1]
  collapsedSliceDims := [0]
  operandBatchingDims := []
  startIndicesBatchingDims := []
  startIndexMap := [0]
  indexVectorDim := 1
  sliceSizes := ![1, 2]
  wf := gather_S132651x2_S8622315x1_S8622315x2_1_0_n_n_0_1_12_wf
def scatter_S132651x2_S8622315x1_S8622315x2_1_0_0_1 : ScatterDims S132651x2 S8622315x1 S8622315x2 where
  updateWindowDims := [1]
  insertedWindowDims := [0]
  scatterDimsToOperandDims := [0]
  indexVectorDim := 1
  wf := scatter_S132651x2_S8622315x1_S8622315x2_1_0_0_1_wf
def gather_S2x132651_S8489664x1_S2x8489664_0_1_n_n_1_1_21 : GatherDims S2x132651 S8489664x1 S2x8489664 where
  offsetDims := [0]
  collapsedSliceDims := [1]
  operandBatchingDims := []
  startIndicesBatchingDims := []
  startIndexMap := [1]
  indexVectorDim := 1
  sliceSizes := ![2, 1]
  wf := gather_S2x132651_S8489664x1_S2x8489664_0_1_n_n_1_1_21_wf

abbrev win0_0 : Pipeline.Window sig grid0 :=
  Pipeline.Window.ofSpec (Memref.whole main_v69) S2x98304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v70) S2x98304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v71) S2x98304.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v72) S2x98304.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v73) S1x98304.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S132651x1 : Shape := ⟨2, ![132651, 1]⟩
abbrev S1x2 : Shape := ⟨2, ![1, 2]⟩
abbrev S2 : Shape := ⟨1, ![2]⟩
abbrev S2x8489664 : Shape := ⟨2, ![2, 8489664]⟩
abbrev S1x8489664 : Shape := ⟨2, ![1, 8489664]⟩
abbrev S8489664 : Shape := ⟨1, ![8489664]⟩
abbrev S132651 : Shape := ⟨1, ![132651]⟩
abbrev S8622315 : Shape := ⟨1, ![8622315]⟩
abbrev S_ : Shape := ⟨0, ![]⟩
abbrev S8622315x1 : Shape := ⟨2, ![8622315, 1]⟩
abbrev S132651x2 : Shape := ⟨2, ![132651, 2]⟩
abbrev S8622315x2 : Shape := ⟨2, ![8622315, 2]⟩
abbrev S8489664x1 : Shape := ⟨2, ![8489664, 1]⟩
abbrev S8489664x2 : Shape := ⟨2, ![8489664, 2]⟩
abbrev S2x4244832 : Shape := ⟨2, ![2, 4244832]⟩
abbrev S4244832 : Shape := ⟨1, ![4244832]⟩
abbrev S4244832x1 : Shape := ⟨2, ![4244832, 1]⟩

abbrev nBuf : Space → Nat
  | .hbm => 106
  | .vmem => 0
  | .smem => 0
  | _ => 0

abbrev bufTy : (tb : Table) → Fin (tcTables nBuf tb) → BufTy
  | .hbm, ⟨0, _⟩ => ⟨S132651x1, .f32⟩
  | .hbm, ⟨1, _⟩ => ⟨S1x2, .f32⟩
  | .hbm, ⟨2, _⟩ => ⟨S2, .f32⟩
  | .hbm, ⟨3, _⟩ => ⟨S2x8489664, .i32⟩
  | .hbm, ⟨4, _⟩ => ⟨S1x8489664, .i32⟩
  | .hbm, ⟨5, _⟩ => ⟨S8489664, .i32⟩
  | .hbm, ⟨6, _⟩ => ⟨S1x8489664, .i32⟩
  | .hbm, ⟨7, _⟩ => ⟨S8489664, .i32⟩
  | .hbm, ⟨8, _⟩ => ⟨S132651, .i32⟩
  | .hbm, ⟨9, _⟩ => ⟨S8622315, .i32⟩
  | .hbm, ⟨10, _⟩ => ⟨S8622315, .i32⟩
  | .hbm, ⟨11, _⟩ => ⟨S_, .f32⟩
  | .hbm, ⟨12, _⟩ => ⟨S8622315, .f32⟩
  | .hbm, ⟨13, _⟩ => ⟨S_, .f32⟩
  | .hbm, ⟨14, _⟩ => ⟨S132651, .f32⟩
  | .hbm, ⟨15, _⟩ => ⟨S8622315x1, .i32⟩
  | .hbm, ⟨16, _⟩ => ⟨S132651, .f32⟩
  | .hbm, ⟨17, _⟩ => ⟨S_, .f32⟩
  | .hbm, ⟨18, _⟩ => ⟨S132651, .f32⟩
  | .hbm, ⟨19, _⟩ => ⟨S132651, .i1⟩
  | .hbm, ⟨20, _⟩ => ⟨S_, .f32⟩
  | .hbm, ⟨21, _⟩ => ⟨S132651, .f32⟩
  | .hbm, ⟨22, _⟩ => ⟨S132651, .f32⟩
  | .hbm, ⟨23, _⟩ => ⟨S132651, .f32⟩
  | .hbm, ⟨24, _⟩ => ⟨S_, .f32⟩
  | .hbm, ⟨25, _⟩ => ⟨S_, .f32⟩
  | .hbm, ⟨26, _⟩ => ⟨S132651, .f32⟩
  | .hbm, ⟨27, _⟩ => ⟨S132651, .f32⟩
  | .hbm, ⟨28, _⟩ => ⟨S_, .i32⟩
  | .hbm, ⟨29, _⟩ => ⟨S8622315, .i32⟩
  | .hbm, ⟨30, _⟩ => ⟨S8622315, .i1⟩
  | .hbm, ⟨31, _⟩ => ⟨S_, .i32⟩
  | .hbm, ⟨32, _⟩ => ⟨S8622315, .i32⟩
  | .hbm, ⟨33, _⟩ => ⟨S8622315, .i32⟩
  | .hbm, ⟨34, _⟩ => ⟨S8622315, .i32⟩
  | .hbm, ⟨35, _⟩ => ⟨S8622315x1, .i32⟩
  | .hbm, ⟨36, _⟩ => ⟨S8622315, .f32⟩
  | .hbm, ⟨37, _⟩ => ⟨S_, .i32⟩
  | .hbm, ⟨38, _⟩ => ⟨S8622315, .i32⟩
  | .hbm, ⟨39, _⟩ => ⟨S8622315, .i1⟩
  | .hbm, ⟨40, _⟩ => ⟨S_, .i32⟩
  | .hbm, ⟨41, _⟩ => ⟨S8622315, .i32⟩
  | .hbm, ⟨42, _⟩ => ⟨S8622315, .i32⟩
  | .hbm, ⟨43, _⟩ => ⟨S8622315, .i32⟩
  | .hbm, ⟨44, _⟩ => ⟨S8622315x1, .i32⟩
  | .hbm, ⟨45, _⟩ => ⟨S8622315, .f32⟩
  | .hbm, ⟨46, _⟩ => ⟨S8622315, .f32⟩
  | .hbm, ⟨47, _⟩ => ⟨S132651x2, .f32⟩
  | .hbm, ⟨48, _⟩ => ⟨S8622315x1, .f32⟩
  | .hbm, ⟨49, _⟩ => ⟨S_, .i32⟩
  | .hbm, ⟨50, _⟩ => ⟨S8622315, .i32⟩
  | .hbm, ⟨51, _⟩ => ⟨S8622315, .i1⟩
  | .hbm, ⟨52, _⟩ => ⟨S_, .i32⟩
  | .hbm, ⟨53, _⟩ => ⟨S8622315, .i32⟩
  | .hbm, ⟨54, _⟩ => ⟨S8622315, .i32⟩
  | .hbm, ⟨55, _⟩ => ⟨S8622315, .i32⟩
  | .hbm, ⟨56, _⟩ => ⟨S8622315x1, .i32⟩
  | .hbm, ⟨57, _⟩ => ⟨S8622315x2, .f32⟩
  | .hbm, ⟨58, _⟩ => ⟨S8622315x2, .f32⟩
  | .hbm, ⟨59, _⟩ => ⟨S8622315x2, .f32⟩
  | .hbm, ⟨60, _⟩ => ⟨S_, .f32⟩
  | .hbm, ⟨61, _⟩ => ⟨S132651x2, .f32⟩
  | .hbm, ⟨62, _⟩ => ⟨S8622315x1, .i32⟩
  | .hbm, ⟨63, _⟩ => ⟨S132651x2, .f32⟩
  | .hbm, ⟨64, _⟩ => ⟨S1x2, .f32⟩
  | .hbm, ⟨65, _⟩ => ⟨S132651x2, .f32⟩
  | .hbm, ⟨66, _⟩ => ⟨S132651x2, .f32⟩
  | .hbm, ⟨67, _⟩ => ⟨S_, .f32⟩
  | .hbm, ⟨68, _⟩ => ⟨S132651x2, .f32⟩
  | .hbm, ⟨69, _⟩ => ⟨S132651x2, .f32⟩
  | .hbm, ⟨70, _⟩ => ⟨S_, .i32⟩
  | .hbm, ⟨71, _⟩ => ⟨S8489664, .i32⟩
  | .hbm, ⟨72, _⟩ => ⟨S8489664, .i1⟩
  | .hbm, ⟨73, _⟩ => ⟨S_, .i32⟩
  | .hbm, ⟨74, _⟩ => ⟨S8489664, .i32⟩
  | .hbm, ⟨75, _⟩ => ⟨S8489664, .i32⟩
  | .hbm, ⟨76, _⟩ => ⟨S8489664, .i32⟩
  | .hbm, ⟨77, _⟩ => ⟨S8489664x1, .i32⟩
  | .hbm, ⟨78, _⟩ => ⟨S8489664x2, .f32⟩
  | .hbm, ⟨79, _⟩ => ⟨S_, .i32⟩
  | .hbm, ⟨80, _⟩ => ⟨S8489664, .i32⟩
  | .hbm, ⟨81, _⟩ => ⟨S8489664, .i1⟩
  | .hbm, ⟨82, _⟩ => ⟨S_, .i32⟩
  | .hbm, ⟨83, _⟩ => ⟨S8489664, .i32⟩
  | .hbm, ⟨84, _⟩ => ⟨S8489664, .i32⟩
  | .hbm, ⟨85, _⟩ => ⟨S8489664, .i32⟩
  | .hbm, ⟨86, _⟩ => ⟨S8489664x1, .i32⟩
  | .hbm, ⟨87, _⟩ => ⟨S8489664x2, .f32⟩
  | .hbm, ⟨88, _⟩ => ⟨S8489664x2, .f32⟩
  | .hbm, ⟨89, _⟩ => ⟨S_, .f32⟩
  | .hbm, ⟨90, _⟩ => ⟨S8489664, .f32⟩
  | .hbm, ⟨91, _⟩ => ⟨S2x4244832, .f32⟩
  | .hbm, ⟨92, _⟩ => ⟨S_, .f32⟩
  | .hbm, ⟨93, _⟩ => ⟨S4244832, .f32⟩
  | .hbm, ⟨94, _⟩ => ⟨S_, .f32⟩
  | .hbm, ⟨95, _⟩ => ⟨S4244832, .f32⟩
  | .hbm, ⟨96, _⟩ => ⟨S4244832, .f32⟩
  | .hbm, ⟨97, _⟩ => ⟨S4244832x1, .f32⟩
  | .hbm, ⟨98, _⟩ => ⟨S4244832x1, .f32⟩
  | .hbm, ⟨99, _⟩ => ⟨S4244832x1, .f32⟩
  | .hbm, ⟨100, _⟩ => ⟨S_, .f32⟩
  | .hbm, ⟨101, _⟩ => ⟨S4244832x1, .f32⟩
  | .hbm, ⟨102, _⟩ => ⟨S4244832x1, .f32⟩
  | .hbm, ⟨103, _⟩ => ⟨S_, .f32⟩
  | .hbm, ⟨104, _⟩ => ⟨S4244832x1, .f32⟩
  | .hbm, ⟨105, _⟩ => ⟨S4244832x1, .f32⟩
  | _, _ => ⟨S132651x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_cst_18 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]

class Facts₀ : Prop where
  slices_S2x8489664_S1x8489664_0_0 : S2x8489664.Slices ![0, 0] S1x8489664
  shapeCasts_S1x8489664_S8489664 : S1x8489664.ShapeCasts S8489664
  slices_S2x8489664_S1x8489664_1_0 : S2x8489664.Slices ![1, 0] S1x8489664
  concatenates_S8489664_S132651_S8622315_d0 : Shape.Concatenates [S8489664, S132651] S8622315 0
  bcast_S_S8622315 : S_.BroadcastsInDim S8622315 (![] : Fin 0 → Fin S8622315.rank)
  bcast_S_S132651 : S_.BroadcastsInDim S132651 (![] : Fin 0 → Fin S132651.rank)
  bcast_S8622315_S8622315x1_0 : S8622315.BroadcastsInDim S8622315x1 (![0] : Fin 1 → Fin S8622315x1.rank)
  bcast_S8622315x1_S8622315x2_0_1 : S8622315x1.BroadcastsInDim S8622315x2 (![0, 1] : Fin 2 → Fin S8622315x2.rank)
  bcast_S_S132651x2 : S_.BroadcastsInDim S132651x2 (![] : Fin 0 → Fin S132651x2.rank)
  bcast_S2_S1x2_1 : S2.BroadcastsInDim S1x2 (![1] : Fin 1 → Fin S1x2.rank)
  bcast_S1x2_S132651x2_0_1 : S1x2.BroadcastsInDim S132651x2 (![0, 1] : Fin 2 → Fin S132651x2.rank)
  bcast_S_S8489664 : S_.BroadcastsInDim S8489664 (![] : Fin 0 → Fin S8489664.rank)
  bcast_S8489664_S8489664x1_0 : S8489664.BroadcastsInDim S8489664x1 (![0] : Fin 1 → Fin S8489664x1.rank)
  reducesTo_S8489664x2_S8489664_d1 : S8489664x2.ReducesTo [1] S8489664
  h_S_ : 0 < S_.numel
  shapeCasts_S8489664_S2x4244832 : S8489664.ShapeCasts S2x4244832
  reducesTo_S2x4244832_S4244832_d0 : S2x4244832.ReducesTo [0] S4244832
  bcast_S_S4244832 : S_.BroadcastsInDim S4244832 (![] : Fin 0 → Fin S4244832.rank)
  bcast_S4244832_S4244832x1_0 : S4244832.BroadcastsInDim S4244832x1 (![0] : Fin 1 → Fin S4244832x1.rank)
  bcast_S_S4244832x1 : S_.BroadcastsInDim S4244832x1 (![] : Fin 0 → Fin S4244832x1.rank)
  scatter_S132651_S8622315x1_S8622315_n_0_0_1_wf : ScatterDims.WF S132651 S8622315x1 S8622315 [] [0] [0] 1
  gather_S132651_S8622315x1_S8622315_n_0_n_n_0_1_1_wf : GatherDims.WF S132651 S8622315x1 S8622315 [] [0] [] [0] [] 1 ![1]
  dot_S132651x1_S1x2_S132651x2_1_0_0_1_n_n_wf : DotDims.WF S132651x1 S1x2 S132651x2 [1] [0] [0] [1] [] []
  gather_S132651x2_S8622315x1_S8622315x2_1_0_n_n_0_1_12_wf : GatherDims.WF S132651x2 S8622315x1 S8622315x2 [1] [0] [] [0] [] 1 ![1, 2]
  scatter_S132651x2_S8622315x1_S8622315x2_1_0_0_1_wf : ScatterDims.WF S132651x2 S8622315x1 S8622315x2 [1] [0] [0] 1
  gather_S132651x2_S8489664x1_S8489664x2_1_0_n_n_0_1_12_wf : GatherDims.WF S132651x2 S8489664x1 S8489664x2 [1] [0] [] [0] [] 1 ![1, 2]

variable [Facts₀]

def scatter_S132651_S8622315x1_S8622315_n_0_0_1 : ScatterDims S132651 S8622315x1 S8622315 where
  updateWindowDims := []
  insertedWindowDims := [0]
  scatterDimsToOperandDims := [0]
  indexVectorDim := 1
  wf := scatter_S132651_S8622315x1_S8622315_n_0_0_1_wf
def gather_S132651_S8622315x1_S8622315_n_0_n_n_0_1_1 : GatherDims S132651 S8622315x1 S8622315 where
  offsetDims := []
  collapsedSliceDims := [0]
  operandBatchingDims := []
  startIndicesBatchingDims := []
  startIndexMap := [0]
  indexVectorDim := 1
  sliceSizes := ![1]
  wf := gather_S132651_S8622315x1_S8622315_n_0_n_n_0_1_1_wf
def dot_S132651x1_S1x2_S132651x2_1_0_0_1_n_n : DotDims S132651x1 S1x2 S132651x2 where
  lhsContracting := [1]
  rhsContracting := [0]
  lhsNonContracting := [0]
  rhsNonContracting := [1]
  lhsBatch := []
  rhsBatch := []
  wf := dot_S132651x1_S1x2_S132651x2_1_0_0_1_n_n_wf
def gather_S132651x2_S8622315x1_S8622315x2_1_0_n_n_0_1_12 : GatherDims S132651x2 S8622315x1 S8622315x2 where
  offsetDims := [1]
  collapsedSliceDims := [0]
  operandBatchingDims := []
  startIndicesBatchingDims := []
  startIndexMap := [0]
  indexVectorDim := 1
  sliceSizes := ![1, 2]
  wf := gather_S132651x2_S8622315x1_S8622315x2_1_0_n_n_0_1_12_wf
def scatter_S132651x2_S8622315x1_S8622315x2_1_0_0_1 : ScatterDims S132651x2 S8622315x1 S8622315x2 where
  updateWindowDims := [1]
  insertedWindowDims := [0]
  scatterDimsToOperandDims := [0]
  indexVectorDim := 1
  wf := scatter_S132651x2_S8622315x1_S8622315x2_1_0_0_1_wf
def gather_S132651x2_S8489664x1_S8489664x2_1_0_n_n_0_1_12 : GatherDims S132651x2 S8489664x1 S8489664x2 where
  offsetDims := [1]
  collapsedSliceDims := [0]
  operandBatchingDims := []
  startIndicesBatchingDims := []
  startIndexMap := [0]
  indexVectorDim := 1
  sliceSizes := ![1, 2]
  wf := gather_S132651x2_S8489664x1_S8489664x2_1_0_n_n_0_1_12_wf

class Facts : Prop extends Facts₀ where

variable [Facts]
-- ==== Proof.LibGather.lean ====
/-
  Two gathers that take whole rows, or whole columns, of a rank-2 table, read at an index, for any extents and
  element type.

  The start indices are an [E × 1] column of signed words, one per gathered position. A gather clamps each start
  index so that the slice fits: here the slice is one row (or one column) of the table, so position `e` reads the
  table at `min (idx[e, 0] read signed, negatives as 0) (N − 1)` on the gathered axis.

  * `gather_rows_apply`: the table is [N × C] and whole rows are taken (the gathered axis 0 is collapsed, axis 1 is
    the offset axis): result [E × C], element (e, ch) is the table at (start e, ch).
  * `gather_cols_apply`: the table is [C × N] and whole columns are taken (the gathered axis 1 is collapsed, axis 0
    is the offset axis): result [C × E], element (ch, e) is the table at (ch, start e).

  The dimension numbers are hypotheses on the record, each closed by `rfl` on a program's printed record.
-/
import Idealize.ShloMosaic.PureOps.ShapeOps
import Idealize.ShloMosaic.Lib.ValueIdx

namespace Idealize.ShloMosaic.LibGather

open Idealize.ShloMosaic Idealize.ShloMosaic.ValueIdx

/-- The table position a start-index column names for gathered position `e`: the word read signed (a negative
    word reads as 0) and clamped to the last position `N − 1`. -/
def startAt {N E w : Nat} (hN : 0 < N) (idx : IVec ⟨2, ![E, 1]⟩ w) (e : Fin E) : Fin N :=
  ⟨min (idx (ix2 e (0 : Fin 1))).toInt.toNat (N - 1), by omega⟩

/-- The one entry of a one-element list. -/
private theorem getElem_of_eq_singleton {β : Type} {l : List β} {v : β} (hl : l = [v]) (k : Nat) (hk : k < l.length) :
    l[k] = v := by
  subst hl
  have h0 : k = 0 := by simpa using hk
  subst h0; rfl

/-- Of the two axes of a rank-2 shape, the ones other than axis 1: axis 0 alone. -/
private theorem kept2_not1 : (List.finRange 2).filter (fun a : Fin 2 => a ∉ [(1 : Fin 2)]) = [0] := by decide
/-- Of the two axes of a rank-2 shape, the ones other than axis 0: axis 1 alone. -/
private theorem kept2_not0 : (List.finRange 2).filter (fun a : Fin 2 => a ∉ [(0 : Fin 2)]) = [1] := by decide

/-- Whole rows of an [N × C] table gathered at an [E × 1] column of start indices: element (e, ch) of the result
    is the table at (`startAt` e, ch). -/
theorem gather_rows_apply {α : Type} {N C E w : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (ch : Fin C) :
    Host.gather d x idx (ix2 e ch) = x (ix2 (startAt hN idx e) ch) := by
  have hb : ∀ a : Fin 2, a ∉ d.operandBatchingDims := fun a => by rw [hob]; exact List.not_mem_nil
  have hbd : d.batchDims = [0] := by
    show (⟨2, ![E, C]⟩ : Shape).kept d.offsetDims = [0]
    rw [hoff]; exact kept2_not1
  have hsk : d.sKept = [1] := by
    show (⟨2, ![N, C]⟩ : Shape).kept (d.collapsedSliceDims ++ d.operandBatchingDims) = [1]
    rw [hcoll, hob]; exact kept2_not0
  -- the gather reads the table at the operand index: compare the two indices axis by axis, as naturals
  unfold Host.gather
  congr 1
  funext a
  apply Fin.ext
  show d.start (ix2 e ch) idx a + d.batchCoord (ix2 e ch) a + d.offCoord (ix2 e ch) a = (ix2 (startAt hN idx e) ch a).val
  rw [d.batchCoord_eq_zero _ _ (hb a), Nat.add_zero]
  match a with
  | ⟨0, _⟩ =>
    -- axis 0 is collapsed and start-indexed: the clamped start index, no offset
    have hk : (0 : Fin 2) ∉ d.sKept := by rw [hsk]; show (0 : Fin 2) ∉ [(1 : Fin 2)]; decide
    have hm : (0 : Fin 2) ∈ d.startIndexMap := by rw [hsim]; exact List.mem_singleton.mpr rfl
    have hsl : d.sliceSizes 0 = 1 := d.slice_collapsed 0 (by rw [hcoll]; exact List.mem_singleton.mpr rfl)
    have hsi : d.siIdx (ix2 e ch) ⟨d.startIndexMap.idxOf 0, List.idxOf_lt_length_iff.2 hm⟩ = ix2 e (0 : Fin 1) := by
      funext b
      apply Fin.ext
      match b with
      | ⟨0, _⟩ =>
        -- the result's one batch axis is axis 0, so the start indices are read at row e
        unfold GatherDims.siIdx
        rw [dif_neg (by rw [hivd]; exact Nat.zero_ne_one)]
        unfold GatherDims.siCoord
        simp only [Fin.val_cast]
        have hX : ∀ X : Fin 2, X = 0 → ((ix2 e ch : (⟨2, ![E, C]⟩ : Shape).Idx) X).val = e.val := by
          intro X hX; subst hX; rfl
        exact hX _ (getElem_of_eq_singleton hbd _ _)
      | ⟨1, _⟩ =>
        -- on the index vector's axis: the component number of operand axis 0 in the start index map, 0
        unfold GatherDims.siIdx
        rw [dif_pos (by rw [hivd])]
        show List.idxOf (0 : Fin 2) d.startIndexMap = 0
        rw [hsim]; simp
    show d.start (ix2 e ch) idx 0 + d.offCoord (ix2 e ch) 0 = (startAt hN idx e).val
    rw [d.offCoord_eq_zero _ _ hk, Nat.add_zero]
    unfold GatherDims.start
    rw [dif_pos hm, hsi]
    show min (idx (ix2 e 0)).toInt.toNat (N - d.sliceSizes 0) = min (idx (ix2 e 0)).toInt.toNat (N - 1)
    rw [hsl]
  | ⟨1, _⟩ =>
    -- axis 1 is the offset axis: start 0, and the offset is the result's coordinate on its axis 1
    have hk : (1 : Fin 2) ∈ d.sKept := by rw [hsk]; exact List.mem_singleton.mpr rfl
    have hm : (1 : Fin 2) ∉ d.startIndexMap := by rw [hsim]; show (1 : Fin 2) ∉ [(0 : Fin 2)]; decide
    have hst : d.start (ix2 e ch) idx 1 = 0 := by unfold GatherDims.start; rw [dif_neg hm]
    show d.start (ix2 e ch) idx 1 + d.offCoord (ix2 e ch) 1 = ch.val
    rw [hst, Nat.zero_add]
    unfold GatherDims.offCoord
    rw [dif_pos hk]
    have hX : ∀ X : Fin 2, X = 1 → ((ix2 e ch : (⟨2, ![E, C]⟩ : Shape).Idx) X).val = ch.val := by
      intro X hX; subst hX; rfl
    exact hX _ (getElem_of_eq_singleton hoff _ _)

/-- Whole columns of a [C × N] table gathered at an [E × 1] column of start indices: element (ch, e) of the result
    is the table at (ch, `startAt` e). -/
theorem gather_cols_apply {α : Type} {N C E w : Nat} (hN : 0 < N)
    (d : GatherDims ⟨2, ![C, N]⟩ ⟨2, ![E, 1]⟩ ⟨2, ![C, E]⟩)
    (hoff : d.offsetDims = [0]) (hcoll : d.collapsedSliceDims = [1]) (hob : d.operandBatchingDims = [])
    (hsim : d.startIndexMap = [1]) (hivd : d.indexVectorDim = 1)
    (x : (⟨2, ![C, N]⟩ : Shape).Idx → α) (idx : IVec ⟨2, ![E, 1]⟩ w) (e : Fin E) (ch : Fin C) :
    Host.gather d x idx (ix2 ch e) = x (ix2 ch (startAt hN idx e)) := by
  have hb : ∀ a : Fin 2, a ∉ d.operandBatchingDims := fun a => by rw [hob]; exact List.not_mem_nil
  have hbd : d.batchDims = [1] := by
    show (⟨2, ![C, E]⟩ : Shape).kept d.offsetDims = [1]
    rw [hoff]; exact kept2_not0
  have hsk : d.sKept = [0] := by
    show (⟨2, ![C, N]⟩ : Shape).kept (d.collapsedSliceDims ++ d.operandBatchingDims) = [0]
    rw [hcoll, hob]; exact kept2_not1
  -- the gather reads the table at the operand index: compare the two indices axis by axis, as naturals
  unfold Host.gather
  congr 1
  funext a
  apply Fin.ext
  show d.start (ix2 ch e) idx a + d.batchCoord (ix2 ch e) a + d.offCoord (ix2 ch e) a = (ix2 ch (startAt hN idx e) a).val
  rw [d.batchCoord_eq_zero _ _ (hb a), Nat.add_zero]
  match a with
  | ⟨0, _⟩ =>
    -- axis 0 is the offset axis: start 0, and the offset is the result's coordinate on its axis 0
    have hk : (0 : Fin 2) ∈ d.sKept := by rw [hsk]; exact List.mem_singleton.mpr rfl
    have hm : (0 : Fin 2) ∉ d.startIndexMap := by rw [hsim]; show (0 : Fin 2) ∉ [(1 : Fin 2)]; decide
    have hst : d.start (ix2 ch e) idx 0 = 0 := by unfold GatherDims.start; rw [dif_neg hm]
    show d.start (ix2 ch e) idx 0 + d.offCoord (ix2 ch e) 0 = ch.val
    rw [hst, Nat.zero_add]
    unfold GatherDims.offCoord
    rw [dif_pos hk]
    have hX : ∀ X : Fin 2, X = 0 → ((ix2 ch e : (⟨2, ![C, E]⟩ : Shape).Idx) X).val = ch.val := by
      intro X hX; subst hX; rfl
    exact hX _ (getElem_of_eq_singleton hoff _ _)
  | ⟨1, _⟩ =>
    -- axis 1 is collapsed and start-indexed: the clamped start index, no offset
    have hk : (1 : Fin 2) ∉ d.sKept := by rw [hsk]; show (1 : Fin 2) ∉ [(0 : Fin 2)]; decide
    have hm : (1 : Fin 2) ∈ d.startIndexMap := by rw [hsim]; exact List.mem_singleton.mpr rfl
    have hsl : d.sliceSizes 1 = 1 := d.slice_collapsed 1 (by rw [hcoll]; exact List.mem_singleton.mpr rfl)
    have hsi : d.siIdx (ix2 ch e) ⟨d.startIndexMap.idxOf 1, List.idxOf_lt_length_iff.2 hm⟩ = ix2 e (0 : Fin 1) := by
      funext b
      apply Fin.ext
      match b with
      | ⟨0, _⟩ =>
        -- the result's one batch axis is axis 1, so the start indices are read at row e
        unfold GatherDims.siIdx
        rw [dif_neg (by rw [hivd]; exact Nat.zero_ne_one)]
        unfold GatherDims.siCoord
        simp only [Fin.val_cast]
        have hX : ∀ X : Fin 2, X = 1 → ((ix2 ch e : (⟨2, ![C, E]⟩ : Shape).Idx) X).val = e.val := by
          intro X hX; subst hX; rfl
        exact hX _ (getElem_of_eq_singleton hbd _ _)
      | ⟨1, _⟩ =>
        -- on the index vector's axis: the component number of operand axis 1 in the start index map, 0
        unfold GatherDims.siIdx
        rw [dif_pos (by rw [hivd])]
        show List.idxOf (1 : Fin 2) d.startIndexMap = 0
        rw [hsim]; simp
    show d.start (ix2 ch e) idx 1 + d.offCoord (ix2 ch e) 1 = (startAt hN idx e).val
    rw [d.offCoord_eq_zero _ _ hk, Nat.add_zero]
    unfold GatherDims.start
    rw [dif_pos hm, hsi]
    show min (idx (ix2 e 0)).toInt.toNat (N - d.sliceSizes 1) = min (idx (ix2 e 0)).toInt.toNat (N - 1)
    rw [hsl]

end Idealize.ShloMosaic.LibGather
-- ==== Proof.Spec.lean ====
/-
  What both programs compute, as one function of the node features and the two start-index columns.

  `H` is the [132651 × 2] table of node features after the graph convolution; `Ir` and `Ic` are the [8489664 × 1]
  columns of start indices for the edges' source and target nodes. An edge's feature is the sum over the two
  channels of its two endpoint rows added. The 8489664 edges are folded into two halves of 4244832: result row `j`
  is the logistic function of the mean of edge `j`'s and edge `4244832 + j`'s features.
-/
import proofs.«146732_j62852551409829_1_alg».proof.Proof.LibGather
import Idealize.ShloMosaic.PureOps.Ideal

noncomputable section

namespace Cert.EdgeFold

open Idealize.ShloMosaic Idealize.ShloMosaic.ValueIdx Idealize.ShloMosaic.LibGather

/-- The node table's extent is positive. -/
theorem nodes_pos : 0 < 132651 := by decide

/-- Edge `e`'s feature: over the two channels, the source node's row plus the target node's row, summed. -/
def edgeSum (H : (⟨2, ![132651, 2]⟩ : Shape).Idx → EReal) (Ir Ic : IVec ⟨2, ![8489664, 1]⟩ 32) (e : Fin 8489664) : EReal :=
  ∑ ch : Fin 2, (H (ix2 (startAt nodes_pos Ir e) ch) + H (ix2 (startAt nodes_pos Ic e) ch))

/-- Edge `j` of the first half. -/
def lo (j : Fin 4244832) : Fin 8489664 := ⟨j.val, by omega⟩
/-- Its partner in the second half. -/
def hi (j : Fin 4244832) : Fin 8489664 := ⟨4244832 + j.val, by omega⟩

/-- Result row `j`: the logistic function of half the sum of the two folded edges' features. -/
def specAt (H : (⟨2, ![132651, 2]⟩ : Shape).Idx → EReal) (Ir Ic : IVec ⟨2, ![8489664, 1]⟩ 32) (j : Fin 4244832) : EReal :=
  Ideal.logistic ((edgeSum H Ir Ic (lo j) + edgeSum H Ir Ic (hi j)) * ((1 / 2 : ℝ) : EReal))

/-- The result array [4244832 × 1]. -/
def spec (H : (⟨2, ![132651, 2]⟩ : Shape).Idx → EReal) (Ir Ic : IVec ⟨2, ![8489664, 1]⟩ 32) :
    (⟨2, ![4244832, 1]⟩ : Shape).Idx → EReal :=
  fun i => specAt H Ir Ic ⟨(i 0).val, idx2_lt0 i⟩

theorem spec_ix2 (H : (⟨2, ![132651, 2]⟩ : Shape).Idx → EReal) (Ir Ic : IVec ⟨2, ![8489664, 1]⟩ 32) (j : Fin 4244832) (q : Fin 1) :
    spec H Ir Ic (ix2 j q) = specAt H Ir Ic j := rfl

end Cert.EdgeFold

end
-- ==== Proof.Consts.lean ====
/-
  The float constants the two programs spell, as the extended reals their bit patterns denote when every float is
  an exact extended real: the zero a host sum starts from, the kernel's factor one half, the reference's divisor two,
  and the one of the logistic function's "1 / (1 + e⁻ˣ)".
-/
import Idealize.ShloMosaic.PureOps.Ideal

noncomputable section

namespace Cert.EdgeFold.Consts

open Idealize.ShloMosaic

/-- `+0.0` denotes `0`. -/
theorem ofBits_zero : Ideal.ofBits .f32 0x00000000#32 = 0 := by
  simp [Ideal.ofBits, Ideal.ieee]

/-- `0.5` denotes the real `1/2`. -/
theorem ofBits_half : Ideal.ofBits .f32 0x3F000000#32 = ((1 / 2 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

end Cert.EdgeFold.Consts

end
-- ==== Proof.RefSide.lean ====
/-
  The reference computes the specification.

  After the node features the reference gathers a row per edge for the source nodes and for the target nodes, adds
  the two, sums over the two channels (a host sum: zero plus the two terms), views the 8489664 sums as two rows of
  4244832, sums the two rows (zero plus the two terms), divides by two and applies "1 / (1 + e⁻ˣ)" spelt out in
  negate, exponential, add and divide. Read at result row `j`: the two rows of the view are edge `j` and edge
  `4244832 + j`; the quotient by two is the product with one half on every extended real; and the spelt-out
  expression is the logistic function.
-/
import proofs.«146732_j62852551409829_1_alg».proof.Proof.RefRead
import proofs.«146732_j62852551409829_1_alg».proof.Proof.Spec
import proofs.«146732_j62852551409829_1_alg».proof.Proof.Consts

noncomputable section

namespace Cert.ReferenceIdeal.EdgeFold

open Cert.ReferenceIdeal Cert.ReferenceIdeal.ReadP Idealize.ShloMosaic Idealize.ShloMosaic.ValueIdx
open Idealize.ShloMosaic.LibGather Cert.EdgeFold Cert.EdgeFold.Consts

/-- The reference's closing operations on a sum `s`: one over one plus the exponential of minus `s / 2`, each written
    with the host's operation and the constants as their bit patterns, is the logistic function of `s · (1/2)`. -/
theorem closing_eq (s : EReal) :
    FloatOps.hostDivf (F := Ideal) (φ := .f32) (FloatOps.ofBits .f32 0x3F800000#32)
      (FloatOps.addf (FloatOps.ofBits .f32 0x3F800000#32)
        (FloatOps.hostUnary .exp (FloatOps.hostNegf (FloatOps.hostDivf s (FloatOps.ofBits .f32 0x40000000#32)))))
      = Ideal.logistic (s * ((1 / 2 : ℝ) : EReal)) := by
  rw [Ideal.ofBits_def, Ideal.ofBits_def, ofBits_one, ofBits_two, Ideal.hostDivf_def s, Ideal.div_coe (by norm_num : (2 : ℝ) ≠ 0)]
  rfl

/-- One element of the two gathered rows added: at edge `e` and channel `ch` it is the node table at the source
    node's row plus the node table at the target node's row. -/
theorem pairSum_apply (x0 : (⟨S132651x1, .f32⟩ : BufTy).Contents (Elt Ideal)) (x1 : (⟨S1x2, .f32⟩ : BufTy).Contents (Elt Ideal))
    (x2 : (⟨S2, .f32⟩ : BufTy).Contents (Elt Ideal)) (x3 : (⟨S2x8489664, .i32⟩ : BufTy).Contents (Elt Ideal))
    (e : Fin 8489664) (ch : Fin 2) :
    val_main_v64 (F := Ideal) x0 x1 x2 x3 (ix2 e ch)
      = val_main_v49 (F := Ideal) x0 x1 x2 x3 (ix2 (startAt nodes_pos (val_main_v55 (F := Ideal) x3) e) ch)
        + val_main_v49 (F := Ideal) x0 x1 x2 x3 (ix2 (startAt nodes_pos (val_main_v62 (F := Ideal) x3) e) ch) := by
  rw [val_main_v64_apply, Ideal.addf_def]
  unfold val_main_v56 val_main_v63
  generalize val_main_v49 (F := Ideal) x0 x1 x2 x3 = H
  generalize val_main_v55 (F := Ideal) x3 = Ir
  generalize val_main_v62 (F := Ideal) x3 = Ic
  rw [gather_rows_apply nodes_pos _ rfl rfl rfl rfl rfl H Ir e ch, gather_rows_apply nodes_pos _ rfl rfl rfl rfl rfl H Ic e ch]

/-- The channel sum at edge `e` is that edge's feature. -/
theorem chanSum_apply (x0 : (⟨S132651x1, .f32⟩ : BufTy).Contents (Elt Ideal)) (x1 : (⟨S1x2, .f32⟩ : BufTy).Contents (Elt Ideal))
    (x2 : (⟨S2, .f32⟩ : BufTy).Contents (Elt Ideal)) (x3 : (⟨S2x8489664, .i32⟩ : BufTy).Contents (Elt Ideal))
    (e : Fin 8489664) :
    val_main_v65 (F := Ideal) x0 x1 x2 x3 (ix1 e)
      = edgeSum (val_main_v49 (F := Ideal) x0 x1 x2 x3) (val_main_v55 (F := Ideal) x3) (val_main_v62 (F := Ideal) x3) e := by
  rw [val_main_v65_apply, val_main_cst_14_apply, Ideal.ofBits_def, ofBits_zero, zero_add]
  unfold edgeSum
  refine Finset.sum_congr rfl fun ch _ => ?_
  have hi : idx_main_v65 (ix1 e) ch = ix2 e ch := by
    funext a; match a with | ⟨0, _⟩ => rfl | ⟨1, _⟩ => rfl
  rw [hi, pairSum_apply]

/-- The sum of the two rows of the [2 × 4244832] view at column `j` is edge `j`'s feature plus edge
    `4244832 + j`'s: row `r`, column `j` of the view is position `r · 4244832 + j` of the flat array. -/
theorem rowSum_apply (x0 : (⟨S132651x1, .f32⟩ : BufTy).Contents (Elt Ideal)) (x1 : (⟨S1x2, .f32⟩ : BufTy).Contents (Elt Ideal))
    (x2 : (⟨S2, .f32⟩ : BufTy).Contents (Elt Ideal)) (x3 : (⟨S2x8489664, .i32⟩ : BufTy).Contents (Elt Ideal))
    (j : Fin 4244832) :
    val_main_v67 (F := Ideal) x0 x1 x2 x3 (ix1 j)
      = edgeSum (val_main_v49 (F := Ideal) x0 x1 x2 x3) (val_main_v55 (F := Ideal) x3) (val_main_v62 (F := Ideal) x3) (lo j)
        + edgeSum (val_main_v49 (F := Ideal) x0 x1 x2 x3) (val_main_v55 (F := Ideal) x3) (val_main_v62 (F := Ideal) x3) (hi j) := by
  rw [val_main_v67_apply, val_main_cst_15_apply, Ideal.ofBits_def, ofBits_zero, zero_add, Fin.sum_univ_two,
    val_main_v66_apply, val_main_v66_apply]
  have h0 : idx_main_v66 (idx_main_v67 (ix1 j) 0) = ix1 (lo j) := by
    funext a; match a with | ⟨0, _⟩ => exact Fin.ext (by show 0 * 4244832 + j.val = j.val; omega)
  have h1 : idx_main_v66 (idx_main_v67 (ix1 j) 1) = ix1 (hi j) := by
    funext a; match a with | ⟨0, _⟩ => exact Fin.ext (by show 1 * 4244832 + j.val = 4244832 + j.val; omega)
  rw [h0, h1, chanSum_apply, chanSum_apply]

/-- THE REFERENCE'S RESULT is the specification of the reference's own node features and start-index columns. -/
theorem ref_eq_spec (x0 : (⟨S132651x1, .f32⟩ : BufTy).Contents (Elt Ideal)) (x1 : (⟨S1x2, .f32⟩ : BufTy).Contents (Elt Ideal))
    (x2 : (⟨S2, .f32⟩ : BufTy).Contents (Elt Ideal)) (x3 : (⟨S2x8489664, .i32⟩ : BufTy).Contents (Elt Ideal)) :
    val_main_v76 (F := Ideal) x0 x1 x2 x3
      = spec (val_main_v49 (F := Ideal) x0 x1 x2 x3) (val_main_v55 (F := Ideal) x3) (val_main_v62 (F := Ideal) x3) := by
  funext i
  obtain ⟨j, q, rfl⟩ : ∃ (j : Fin 4244832) (q : Fin 1), i = ix2 j q := ⟨i 0, i 1, eq_ix2 i⟩
  rw [spec_ix2, val_main_v76_apply, val_main_v75_apply, val_main_cst_18_apply, val_main_v74_apply, val_main_v73_apply,
    val_main_cst_17_apply, val_main_v72_apply, val_main_v71_apply, val_main_v70_apply, val_main_v69_apply,
    val_main_v68_apply, val_main_cst_16_apply, closing_eq]
  have hi : idx_main_v70 (ix2 j q) = ix1 j := by
    funext a; match a with | ⟨0, _⟩ => rfl
  rw [hi, rowSum_apply]
  rfl

end Cert.ReferenceIdeal.EdgeFold

end
-- ==== Proof.KernelPayload.lean ====
/-
  The kernel body's one stored value, read at a lane.

  On a tile of 98304 lanes the body loads four [2 × 98304] blocks (source and target columns of the first half of the
  edges, then of the second half), adds the first two and sums the result over its two rows, does the same with the
  last two, adds the two row sums, multiplies by one half and applies the logistic function. At lane `q` that is the
  logistic function of half of: the first two blocks' entries in column `q` summed over both rows, plus the same for
  the last two.
-/
import proofs.«146732_j62852551409829_1_alg».proof.Proof.Gen.KernelIdeal.Skeleton
import proofs.«146732_j62852551409829_1_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.EdgeFold

open Cert.KernelIdeal Cert.KernelIdeal.Gen Idealize.ShloMosaic Idealize.ShloMosaic.ValueIdx Cert.EdgeFold.Consts

/-- The sum of a [2 × 98304] block over its two rows, at column `q`. -/
theorem rowSum_apply (v : FVec Ideal S2x98304 .f32) (hφ : FKind.Formats .f32)
    (hacc : (0x00000000#32 : BitVec 32) = FKind.add.neutral .f32 hφ) (q : Fin 98304) :
    multiReduction .add [0] S98304 v 0x00000000#32 reduces_S2x98304_S98304 hφ hacc (ix1 q) = ∑ ch : Fin 2, v (ix2 ch q) := by
  refine (Ideal.multiReduction_add_single v 0x00000000#32 reduces_S2x98304_S98304 hφ hacc (ix1 q)).trans ?_
  refine Finset.sum_congr rfl fun k _ => ?_
  exact congrArg v (funext fun a => Fin.ext (by match a with | ⟨0, _⟩ => rfl | ⟨1, _⟩ => rfl))

/-- Two blocks added, summed over the two rows and laid out as one row, at lane `q`. -/
theorem pairSum_apply (a b : FVec Ideal S2x98304 .f32) (hφ : FKind.Formats .f32)
    (hacc : (0x00000000#32 : BitVec 32) = FKind.add.neutral .f32 hφ) (q : Fin 98304) :
    (shapeCast S1x98304 (multiReduction (F := Ideal) .add [0] S98304
        (addf (F := Ideal) (shapeCast S2x98304 a shapeCasts_S2x98304_S2x98304) (shapeCast S2x98304 b shapeCasts_S2x98304_S2x98304))
        0x00000000#32 reduces_S2x98304_S98304 hφ hacc) shapeCasts_S98304_S1x98304 : FVec Ideal S1x98304 .f32) (ix2 (0 : Fin 1) q)
      = ∑ ch : Fin 2, (a (ix2 ch q) + b (ix2 ch q)) := by
  refine (ValueIdx.shapeCast_a_1a_apply _ shapeCasts_S98304_S1x98304 (0 : Fin 1) q).trans ?_
  refine (rowSum_apply _ hφ hacc q).trans ?_
  refine Finset.sum_congr rfl fun ch _ => ?_
  show (shapeCast S2x98304 a shapeCasts_S2x98304_S2x98304 : FVec Ideal S2x98304 .f32) (ix2 ch q) + (shapeCast S2x98304 b shapeCasts_S2x98304_S2x98304 : FVec Ideal S2x98304 .f32) (ix2 ch q) = _
  rw [shapeCast_self, shapeCast_self]

/-- The logistic function of a vector, read at an index. -/
theorem logistic_apply {s : Shape} {φ : FTy} (v : FVec Ideal s φ) (i : s.Idx) : logistic v i = Ideal.logistic (v i) := rfl

/-- THE STORED VALUE at lane `q`. -/
theorem pay_apply (x0 x1 x2 x3 : Vec Ideal S2x98304 .f32) (q : Fin 98304) :
    k0_pay1 (F := Ideal) x0 x1 x2 x3 (ix2 (0 : Fin 1) q)
      = Ideal.logistic (((∑ ch : Fin 2, (x0 (ix2 ch q) + x1 (ix2 ch q))) + (∑ ch : Fin 2, (x2 (ix2 ch q) + x3 (ix2 ch q))))
          * ((1 / 2 : ℝ) : EReal)) := by
  unfold k0_pay1
  dsimp only
  refine (logistic_apply _ _).trans (congrArg Ideal.logistic ?_)
  refine (mulf_apply _ _ _).trans (congrArg₂ (· * ·) ?_ ofBits_half)
  exact (addf_apply _ _ _).trans (congrArg₂ (· + ·) (pairSum_apply x0 x1 _ _ q) (pairSum_apply x2 x3 _ _ q))

end Cert.KernelIdeal.EdgeFold

end
-- ==== Proof.KernelBlocks.lean ====
/-
  The kernel region's output array, whole.

  The region runs the body on 44 tiles of 98304 lanes. Every one of the four input arrays [2 × 4325376] and the
  output array [1 × 4325376] is cut the same way: tile `t` is columns `98304·t … 98304·t + 98303`, all rows. So the
  output's column `p` depends only on column `p` of the four inputs, and the array ends holding ONE function of
  them, `foldOut`: the logistic function of half of (the first two arrays' column summed over both rows, plus the
  last two arrays' column summed over both rows). The 44 tiles cover every column: column `p` is in tile `p / 98304`.
-/
import proofs.«146732_j62852551409829_1_alg».proof.Proof.Gen.KernelIdeal.Frame
import proofs.«146732_j62852551409829_1_alg».proof.Proof.KernelPayload
import Idealize.ShloMosaic.Lib.Pipeline.Value

set_option maxRecDepth 16384

noncomputable section

namespace Cert.KernelIdeal.EdgeFold

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem zero_off : (![0, 0] : Fin 2 → Nat) = fun _ => 0 := funext fun a => by fin_cases a <;> rfl

/-- The output array as a function of the four input arrays: column by column. -/
def foldOut (a0 a1 a2 a3 : S2x4325376.Idx → EReal) : S1x4325376.Idx → EReal := fun i =>
  Ideal.logistic (((∑ ch : Fin 2, (a0 (ix2 ch ⟨(i 1).val, idx2_lt1 i⟩) + a1 (ix2 ch ⟨(i 1).val, idx2_lt1 i⟩)))
      + (∑ ch : Fin 2, (a2 (ix2 ch ⟨(i 1).val, idx2_lt1 i⟩) + a3 (ix2 ch ⟨(i 1).val, idx2_lt1 i⟩))))
    * ((1 / 2 : ℝ) : EReal))

/-- The index maps, decided over the 44 points: every window's block has row index 0, the four inputs' column index
    is the output's, and the output's column index is at most 43. -/
theorem idx_facts : ∀ t : Fin cfg0.N,
    win0_0.index t (0 : Fin 2) = 0 ∧ win0_0.index t (1 : Fin 2) = win0_4.index t (1 : Fin 2)
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) = 0 ∧ win0_4.index t (1 : Fin 2) ≤ 43 :=
  (by decide +kernel : ∀ t : Fin grid0.N, _)

/-- Every tile is some point's. -/
theorem idx_onto : ∀ q1 : Fin 44, ∃ t : Fin cfg0.N, win0_4.index t = ![0, q1.val] :=
  (by decide +kernel : ∀ q1 : Fin 44, ∃ t : Fin grid0.N, win0_4.index t = ![0, q1.val])

/-- Entry (ch, q) of input window 0's block at point `t` is the array's entry in row `ch` and in the column that lane
    `q` of the output's block at `t` has. -/
theorem inblk0 (c : Dev nD) (t : Fin cfg0.N) (ch : Fin 2) (q : Fin 98304) :
    iblk m c 0 t (ix2 ch q)
      = V m c main_v69 (ix2 ch ⟨(((cfg0.win 4).blk t).view.emb (ix2 (0 : Fin 1) q) 1).val, idx2_lt1 _⟩) := by
  obtain ⟨e0, e1, -⟩ := idx_facts t
  show V m c main_v69 (((cfg0.win 0).blk t).view.emb (ix2 ch q)) = _
  refine congrArg (V m c main_v69) ?_
  funext a; apply Fin.ext
  match a with
  | ⟨0, _⟩ => show win0_0.index t (0 : Fin 2) * 2 + 1 * ch.val = ch.val; omega
  | ⟨1, _⟩ => show win0_0.index t (1 : Fin 2) * 98304 + 1 * q.val = win0_4.index t (1 : Fin 2) * 98304 + 1 * q.val; omega

theorem inblk1 (c : Dev nD) (t : Fin cfg0.N) (ch : Fin 2) (q : Fin 98304) :
    iblk m c 1 t (ix2 ch q)
      = V m c main_v70 (ix2 ch ⟨(((cfg0.win 4).blk t).view.emb (ix2 (0 : Fin 1) q) 1).val, idx2_lt1 _⟩) := by
  obtain ⟨-, -, e0, e1, -⟩ := idx_facts t
  show V m c main_v70 (((cfg0.win 1).blk t).view.emb (ix2 ch q)) = _
  refine congrArg (V m c main_v70) ?_
  funext a; apply Fin.ext
  match a with
  | ⟨0, _⟩ => show win0_1.index t (0 : Fin 2) * 2 + 1 * ch.val = ch.val; omega
  | ⟨1, _⟩ => show win0_1.index t (1 : Fin 2) * 98304 + 1 * q.val = win0_4.index t (1 : Fin 2) * 98304 + 1 * q.val; omega

theorem inblk2 (c : Dev nD) (t : Fin cfg0.N) (ch : Fin 2) (q : Fin 98304) :
    iblk m c 2 t (ix2 ch q)
      = V m c main_v71 (ix2 ch ⟨(((cfg0.win 4).blk t).view.emb (ix2 (0 : Fin 1) q) 1).val, idx2_lt1 _⟩) := by
  obtain ⟨-, -, -, -, e0, e1, -⟩ := idx_facts t
  show V m c main_v71 (((cfg0.win 2).blk t).view.emb (ix2 ch q)) = _
  refine congrArg (V m c main_v71) ?_
  funext a; apply Fin.ext
  match a with
  | ⟨0, _⟩ => show win0_2.index t (0 : Fin 2) * 2 + 1 * ch.val = ch.val; omega
  | ⟨1, _⟩ => show win0_2.index t (1 : Fin 2) * 98304 + 1 * q.val = win0_4.index t (1 : Fin 2) * 98304 + 1 * q.val; omega

theorem inblk3 (c : Dev nD) (t : Fin cfg0.N) (ch : Fin 2) (q : Fin 98304) :
    iblk m c 3 t (ix2 ch q)
      = V m c main_v72 (ix2 ch ⟨(((cfg0.win 4).blk t).view.emb (ix2 (0 : Fin 1) q) 1).val, idx2_lt1 _⟩) := by
  obtain ⟨-, -, -, -, -, -, e0, e1, -⟩ := idx_facts t
  show V m c main_v72 (((cfg0.win 3).blk t).view.emb (ix2 ch q)) = _
  refine congrArg (V m c main_v72) ?_
  funext a; apply Fin.ext
  match a with
  | ⟨0, _⟩ => show win0_3.index t (0 : Fin 2) * 2 + 1 * ch.val = ch.val; omega
  | ⟨1, _⟩ => show win0_3.index t (1 : Fin 2) * 98304 + 1 * q.val = win0_4.index t (1 : Fin 2) * 98304 + 1 * q.val; omega

set_option maxHeartbeats 4000000 in
/-- WHAT POINT `t` WRITES BACK is tile `t` of `foldOut` of the four arrays as the region finds them. -/
theorem flushed_eq (c : Dev nD) (t : Fin cfg0.N) :
    (dats m 0 c).flushed 4 t
      = ((cfg0.win 4).blk t).view.read (Elt Ideal) (foldOut (V m c main_v69) (V m c main_v70) (V m c main_v71) (V m c main_v72)) := by
  show (cfg0.win 4).cut (grid0.coords t) ((dats m 0 c).after 4 t) = _
  rw [after0_4]
  unfold out0_4
  rw [View.canon_unit_zero zero_off]
  simp only [View.ld_unit_zero (S := S2x98304) zero_off]
  funext j
  obtain ⟨u, q, rfl⟩ : ∃ (u : Fin 1) (q : Fin 98304), j = ix2 u q := ⟨j 0, j 1, eq_ix2 j⟩
  obtain rfl : u = 0 := Subsingleton.elim _ _
  show k0_pay1 (F := Ideal) (iblk m c 0 t) (iblk m c 1 t) (iblk m c 2 t) (iblk m c 3 t) (ix2 (0 : Fin 1) q)
    = foldOut (V m c main_v69) (V m c main_v70) (V m c main_v71) (V m c main_v72) (((cfg0.win 4).blk t).view.emb (ix2 (0 : Fin 1) q))
  refine (pay_apply (iblk m c 0 t) (iblk m c 1 t) (iblk m c 2 t) (iblk m c 3 t) q).trans ?_
  unfold foldOut
  simp only [inblk0 m c t, inblk1 m c t, inblk2 m c t, inblk3 m c t]

/-- An index of the output array is in point `t`'s tile iff each coordinate is in the tile's range on its axis. -/
theorem mem_tile (t : Fin cfg0.N) (i : S1x4325376.Idx) :
    i ∈ ((cfg0.win 4).blk t).view.set ↔ ∀ a : Fin 2, win0_4.index t a * S1x98304.size a ≤ (i a).val
      ∧ (i a).val < win0_4.index t a * S1x98304.size a + S1x98304.size a := by
  show i ∈ ((View.whole main_v73).slice (win0_4.rect t)).set ↔ _
  rw [View.set_slice_whole, Rect.mem_set_unit]
  exact Iff.rfl

/-- Every index of the output array is in some point's tile: column `p` in tile `p / 98304`. -/
theorem covered (i : S1x4325376.Idx) :
    ∃ t : Fin cfg0.N, (cfg0.win 4).flush t = true ∧ i ∈ ((cfg0.win 4).blk t).view.set := by
  have hi0 : (i 0).val < 1 := (i 0).isLt
  have hi1 : (i 1).val < 4325376 := (i 1).isLt
  obtain ⟨t, ht⟩ := idx_onto ⟨(i 1).val / 98304, by omega⟩
  have q0 : win0_4.index t (0 : Fin 2) = 0 := congrFun ht 0
  have q1 : win0_4.index t (1 : Fin 2) = (i 1).val / 98304 := congrFun ht 1
  refine ⟨t, flush0_4 t, ?_⟩
  rw [mem_tile]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 98304 ≤ (i 1).val ∧ (i 1).val < win0_4.index t (1 : Fin 2) * 98304 + 98304; omega

/-- THE OUTPUT ARRAY after the run. -/
theorem final (c : Dev nD) :
    (dats m 0 c).arrAt 4 cfg0.N = foldOut (V m c main_v69) (V m c main_v70) (V m c main_v71) (V m c main_v72) :=
  (dats m 0 c).arrAt_eq_of_cover 4 _ (fun t _ => flushed_eq m c t) covered

end Cert.KernelIdeal.EdgeFold

end
-- ==== Proof.KernelArrays.lean ====
/-
  The four arrays the kernel region reads, as functions of the program's arguments.

  Before the region the host computes the node features `h` ([132651 × 2], the graph convolution followed by the
  rectifier), transposes them to channel-major [2 × 132651], gathers a column per edge for the edges' source nodes
  and for their target nodes ([2 × 8489664] each), cuts each gathered array into its first and second half of
  4244832 columns, and pads every half with 80544 more columns to [2 × 4325376]: 44 tiles of 98304 columns.
  The features and the two start-index columns are the same host computations in both programs, so they are named
  here by the reference's stage functions, and never opened.
-/
import proofs.«146732_j62852551409829_1_alg».proof.Proof.Gen.KernelIdeal.Frame
import proofs.«146732_j62852551409829_1_alg».proof.Proof.RefRead
import Idealize.ShloMosaic.Lib.StableHlo.Run

set_option maxRecDepth 16384

noncomputable section

namespace Cert.KernelIdeal.EdgeFold

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The node features, of the arguments as launched. -/
abbrev feat (c : Dev nD) : FVec F S132651x2 .f32 :=
  Cert.ReferenceIdeal.ReadP.val_main_v49 (F := F) (m ((c : Thread nD τ).loc main_arg0)) (m ((c : Thread nD τ).loc main_arg1))
    (m ((c : Thread nD τ).loc main_arg2)) (m ((c : Thread nD τ).loc main_arg3))
/-- The start-index column of the edges' source nodes. -/
abbrev srcCol (c : Dev nD) : IVec S8489664x1 32 :=
  Cert.ReferenceIdeal.ReadP.val_main_v55 (F := F) (m ((c : Thread nD τ).loc main_arg3))
/-- The start-index column of the edges' target nodes. -/
abbrev dstCol (c : Dev nD) : IVec S8489664x1 32 :=
  Cert.ReferenceIdeal.ReadP.val_main_v62 (F := F) (m ((c : Thread nD τ).loc main_arg3))

/-- The channel-major features gathered at a start-index column: one column per edge. -/
abbrev gathered (H : FVec F S132651x2 .f32) (I : IVec S8489664x1 32) : FVec F S2x8489664 .f32 :=
  Host.gather gather_S2x132651_S8489664x1_S2x8489664_0_1_n_n_1_1_21 (transpose S2x132651 [1, 0] H transposes_S132651x2_S2x132651_1_0) I
/-- The first half of the edges. -/
abbrev firstHalf (X : FVec F S2x8489664 .f32) : FVec F S2x4244832 .f32 :=
  extractStridedSlice S2x4244832 ![0, 0] X slices_S2x8489664_S2x4244832_0_0
/-- The second half of the edges. -/
abbrev secondHalf (X : FVec F S2x8489664 .f32) : FVec F S2x4244832 .f32 :=
  extractStridedSlice S2x4244832 ![0, 4244832] X slices_S2x8489664_S2x4244832_0_4244832
/-- A half padded on the right to a whole number of tiles. -/
abbrev padded (X : FVec F S2x4244832 .f32) : FVec F S2x4325376 .f32 :=
  pad S2x4325376 ![0, 0] ![0, 80544] ![0, 0] X (sitofp (F := F) .f32 (constantI S_ 32 0#32)) pads_S2x4244832_S2x4325376_000_0805440 h_S_

set_option maxHeartbeats 4000000 in
/-- Window 0's array: the source nodes' columns, first half. -/
theorem win0_eq (c : Dev nD) : V m c main_v69 = padded (firstHalf (gathered (feat m c) (srcCol m c))) := by
  dsimp only [V, V0]
  simp only [hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results_simp
  rfl

set_option maxHeartbeats 4000000 in
/-- Window 1's array: the target nodes' columns, first half. -/
theorem win1_eq (c : Dev nD) : V m c main_v70 = padded (firstHalf (gathered (feat m c) (dstCol m c))) := by
  dsimp only [V, V0]
  simp only [hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results_simp
  rfl

set_option maxHeartbeats 4000000 in
/-- Window 2's array: the source nodes' columns, second half. -/
theorem win2_eq (c : Dev nD) : V m c main_v71 = padded (secondHalf (gathered (feat m c) (srcCol m c))) := by
  dsimp only [V, V0]
  simp only [hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results_simp
  rfl

set_option maxHeartbeats 4000000 in
/-- Window 3's array: the target nodes' columns, second half. -/
theorem win3_eq (c : Dev nD) : V m c main_v72 = padded (secondHalf (gathered (feat m c) (dstCol m c))) := by
  dsimp only [V, V0]
  simp only [hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results_simp
  rfl

end Cert.KernelIdeal.EdgeFold

end
-- ==== Proof.KernelTail.lean ====
/-
  The kernel program's result is the specification.

  The region's output [1 × 4325376] is `foldOut` of the four padded half arrays. After the region the host keeps the
  first 4244832 columns and lays them out as a column [4244832 × 1]: result row `j` is output column `j`. Below
  4244832 a padded half is the half itself; column `j` of the first half of a gathered array is its column `j`, of the
  second half its column `4244832 + j`; and column `e` of the channel-major features gathered at a start-index column
  is the node table's row at the node that column names for edge `e`, read channel by channel. So result row `j` is the
  logistic function of half of edge `j`'s feature plus edge `4244832 + j`'s.
-/
import proofs.«146732_j62852551409829_1_alg».proof.Proof.KernelBlocks
import proofs.«146732_j62852551409829_1_alg».proof.Proof.KernelArrays
import proofs.«146732_j62852551409829_1_alg».proof.Proof.Spec
import Idealize.ShloMosaic.Lib.KernelVsHost
import Idealize.ShloMosaic.Lib.ValueLayout
import Idealize.ShloMosaic.Lib.StableHlo.Run

set_option maxRecDepth 16384

noncomputable section

namespace Cert.KernelIdeal.EdgeFold

open Cert.KernelIdeal Cert.KernelIdeal.Gen Idealize.ShloMosaic Idealize.ShloMosaic.TcCoe Idealize.ShloMosaic.ValueIdx
open Idealize.SL.Sem Idealize.ShloMosaic.StableHlo
open Idealize.ShloMosaic.LibGather Cert.EdgeFold

/-- A padded half read at a column of the half is the half there. -/
theorem padded_apply (X : FVec Ideal S2x4244832 .f32) (ch : Fin 2) (p : Fin 4325376) (hp : p.val < 4244832) :
    padded (F := Ideal) X (ix2 ch p) = X (ix2 ch ⟨p.val, hp⟩) :=
  pad_apply_of_inside _ _ _ X _ pads_S2x4244832_S2x4325376_000_0805440 h_S_ (ix2 ch p) (ix2 ch ⟨p.val, hp⟩) (fun a => by
    match a with
    | ⟨0, _⟩ => show ch.val = 0 + ch.val * (0 + 1); omega
    | ⟨1, _⟩ => show p.val = 0 + p.val * (0 + 1); omega)

/-- Column `j` of the first half is column `j`. -/
theorem firstHalf_apply (Y : FVec Ideal S2x8489664 .f32) (ch : Fin 2) (j : Fin 4244832) :
    firstHalf (F := Ideal) Y (ix2 ch j) = Y (ix2 ch (lo j)) :=
  ValueIdx.slice2_axis1_apply 0 Y slices_S2x8489664_S2x4244832_0_0 ch j (lo j) (by show j.val = 0 + j.val; omega)

/-- Column `j` of the second half is column `4244832 + j`. -/
theorem secondHalf_apply (Y : FVec Ideal S2x8489664 .f32) (ch : Fin 2) (j : Fin 4244832) :
    secondHalf (F := Ideal) Y (ix2 ch j) = Y (ix2 ch (hi j)) :=
  ValueIdx.slice2_axis1_apply 4244832 Y slices_S2x8489664_S2x4244832_0_4244832 ch j (hi j) rfl

/-- Column `e` of the channel-major features gathered at a start-index column: the node table at the node the column
    names for edge `e`. -/
theorem gathered_apply (H : FVec Ideal S132651x2 .f32) (I : IVec S8489664x1 32) (ch : Fin 2) (e : Fin 8489664) :
    gathered (F := Ideal) H I (ix2 ch e) = H (ix2 (startAt nodes_pos I e) ch) :=
  (gather_cols_apply nodes_pos gather_S2x132651_S8489664x1_S2x8489664_0_1_n_n_1_1_21 rfl rfl rfl rfl rfl _ I e ch).trans
    (ValueIdx.transpose_ix2_apply H transposes_S132651x2_S2x132651_1_0 ch (startAt nodes_pos I e))

/-- A first-half window's entry in a column `p` below 4244832. -/
theorem winLo_apply (H : FVec Ideal S132651x2 .f32) (I : IVec S8489664x1 32) (ch : Fin 2) (p : Fin 4325376) (hp : p.val < 4244832) :
    padded (F := Ideal) (firstHalf (gathered H I)) (ix2 ch p) = H (ix2 (startAt nodes_pos I (lo ⟨p.val, hp⟩)) ch) :=
  (padded_apply _ ch p hp).trans ((firstHalf_apply _ ch _).trans (gathered_apply H I ch _))

/-- A second-half window's entry in a column `p` below 4244832. -/
theorem winHi_apply (H : FVec Ideal S132651x2 .f32) (I : IVec S8489664x1 32) (ch : Fin 2) (p : Fin 4325376) (hp : p.val < 4244832) :
    padded (F := Ideal) (secondHalf (gathered H I)) (ix2 ch p) = H (ix2 (startAt nodes_pos I (hi ⟨p.val, hp⟩)) ch) :=
  (padded_apply _ ch p hp).trans ((secondHalf_apply _ ch _).trans (gathered_apply H I ch _))

/-- THE REGION'S OUTPUT in a column `j` below 4244832 is the specification's row `j`. -/
theorem foldOut_apply (H : FVec Ideal S132651x2 .f32) (Ir Ic : IVec S8489664x1 32) (j : Fin 4244832) :
    foldOut (padded (F := Ideal) (firstHalf (gathered H Ir))) (padded (F := Ideal) (firstHalf (gathered H Ic)))
        (padded (F := Ideal) (secondHalf (gathered H Ir))) (padded (F := Ideal) (secondHalf (gathered H Ic)))
        (ix2 (0 : Fin 1) (⟨j.val, by omega⟩ : Fin 4325376))
      = specAt H Ir Ic j := by
  unfold foldOut specAt edgeSum
  have hj : j.val < 4244832 := j.isLt
  have e : ∀ hq, (⟨((ix2 (0 : Fin 1) (⟨j.val, by omega⟩ : Fin 4325376) : S1x4325376.Idx) 1).val, hq⟩ : Fin 4325376) = ⟨j.val, by omega⟩ :=
    fun _ => rfl
  simp only [e, winLo_apply H Ir _ ⟨j.val, by omega⟩ hj, winLo_apply H Ic _ ⟨j.val, by omega⟩ hj,
    winHi_apply H Ir _ ⟨j.val, by omega⟩ hj, winHi_apply H Ic _ ⟨j.val, by omega⟩ hj]

variable (m : (ℓ : Loc nD τ sig) → Buf (Elt Ideal) ℓ) (ρ : Dev nD → PrngReg)

/-- THE PROGRAM'S RESULT after the host's last two operations: the specification of the node features and the two
    start-index columns. -/
theorem tail_eq (c : Dev nD) :
    Pipeline.afterTail₀ cfgs (dats m) 0 (V0 m) [hostOps1] c main_v75 = spec (feat m c) (srcCol m c) (dstCol m c) := by
  have hW : Pipeline.withArrays (cfgs 0).spec c (V0 m c) (fun w => (dats m 0 c).arrAt w (cfgs 0).N) (Proc.devRef .tc main_v73)
      = foldOut (V m c main_v69) (V m c main_v70) (V m c main_v71) (V m c main_v72) :=
    (Pipeline.withArrays_arr spec0 launch0.win.arr_inj c _ _ 4).trans (final m c)
  unfold Pipeline.afterTail₀
  show StableHlo.after hostOps1 _ (Proc.devRef .tc main_v75) = _
  after_results
  rw [hW, win0_eq, win1_eq, win2_eq, win3_eq]
  funext i
  obtain ⟨j, q, rfl⟩ : ∃ (j : Fin 4244832) (q : Fin 1), i = ix2 j q := ⟨i 0, i 1, eq_ix2 i⟩
  rw [spec_ix2]
  refine (shapeCast_apply _ shapeCasts_S1x4244832_S4244832x1 (ix2 j q) (ix2 (0 : Fin 1) j) (by
    have hq : q.val = 0 := by omega
    rw [Shape.rowMajor_val_two, Shape.rowMajor_val_two]
    show 0 * 4244832 + j.val = j.val * 1 + q.val
    omega)).trans ?_
  refine (ValueIdx.slice2_axis1_apply 0 _ slices_S1x4325376_S1x4244832_0_0 (0 : Fin 1) j ⟨j.val, by omega⟩ (by show j.val = 0 + j.val; omega)).trans ?_
  exact foldOut_apply (feat m c) (srcCol m c) (dstCol m c) j

/-- THE KERNEL PROGRAM'S RUN: every weakly fair execution terminates with the result at the specification and the
    arguments unchanged. -/
theorem run : θ_run defs (onTc (τ := τ) (main (F := Ideal))) ⟨m, fun _ => 0, ρ⟩ fun r => ∀ c : Dev nD,
      r.2.mem ((c.tc : Thread nD τ).loc main_v75) = spec (feat m c) (srcCol m c) (dstCol m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v75 (Pipeline.mem_restRefs_of main_v75 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.EdgeFold

end
-- ==== Proof.lean ====
/-
  The certificate's five claims for the edge-fold kernel against its plain reference.

  Both programs compute, on the host, the node features `h` (a graph convolution followed by the rectifier) and, from
  the edge list, a start index per edge for its source node and for its target node. They differ in what follows.
  The reference gathers the two endpoint rows of `h` per edge, adds them, sums over the two channels, folds the
  8489664 edges into two halves, takes the mean of each pair and applies the logistic function written out as
  "1 / (1 + e⁻ˣ)". The kernel program transposes `h`, gathers columns, cuts and pads the gathered arrays to 44 tiles
  and runs one region that, lane by lane, adds, sums over the two rows, adds the two halves, halves and applies the
  logistic function; then it drops the padding. Read as exact extended reals both are ONE function of `h` and the two
  start-index columns (`Cert.EdgeFold.spec`): a transposed table gathered by columns is the table gathered by rows;
  the quotient by two is the product with one half on every extended real; the written-out expression is the
  logistic function; and the sums differ only in their grouping and in zeros added on the left. No step needs the
  inputs finite, so the precondition is never opened.

  The frames of the two kernel programs are the generated ones; the reference's frame is its run with the result
  dropped; the idealization rewrote nothing, so its claim is trivial.
-/
import proofs.«146732_j62852551409829_1_alg».proof.Defs
import proofs.«146732_j62852551409829_1_alg».proof.Proof.Gen.Kernel
import proofs.«146732_j62852551409829_1_alg».proof.Proof.Gen.Kernel.Skeleton
import proofs.«146732_j62852551409829_1_alg».proof.Proof.Gen.Kernel.Launch
import proofs.«146732_j62852551409829_1_alg».proof.Proof.Gen.Kernel.Points
import proofs.«146732_j62852551409829_1_alg».proof.Proof.Gen.Kernel.Frame
import proofs.«146732_j62852551409829_1_alg».proof.Proof.Gen.KernelIdeal
import proofs.«146732_j62852551409829_1_alg».proof.Proof.Gen.KernelIdeal.Skeleton
import proofs.«146732_j62852551409829_1_alg».proof.Proof.Gen.KernelIdeal.Launch
import proofs.«146732_j62852551409829_1_alg».proof.Proof.Gen.KernelIdeal.Points
import proofs.«146732_j62852551409829_1_alg».proof.Proof.Gen.KernelIdeal.Frame
import proofs.«146732_j62852551409829_1_alg».proof.Proof.Gen.ReferenceIdeal
import proofs.«146732_j62852551409829_1_alg».proof.Proof.RefRun
import proofs.«146732_j62852551409829_1_alg».proof.Proof.RefRead
import proofs.«146732_j62852551409829_1_alg».proof.Proof.RefSide
import proofs.«146732_j62852551409829_1_alg».proof.Proof.KernelTail
import proofs.«146732_j62852551409829_1_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end at the specification of the same node features and
    the same two start-index columns: the kernel program by its run, the reference by its run read stage by stage. -/
theorem algebraic : Cert.algebraic_KernelIdeal_ReferenceIdeal := by
  intro m ρ m' ρ' _ hagree
  refine ⟨fun c => Cert.EdgeFold.spec (Cert.KernelIdeal.EdgeFold.feat m c) (Cert.KernelIdeal.EdgeFold.srcCol m c)
      (Cert.KernelIdeal.EdgeFold.dstCol m c), Cert.KernelIdeal.EdgeFold.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v76_eq, Cert.ReferenceIdeal.EdgeFold.ref_eq_spec,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
